-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S32x512x1x64 : Shape := ⟨4, ![32, 512, 1, 64]⟩
abbrev S512x128x64 : Shape := ⟨3, ![512, 128, 64]⟩
abbrev S_ : Shape := ⟨0, ![]⟩

class Facts : Prop where
  bcast_S_S32x512x1x64 : S_.BroadcastsInDim S32x512x1x64 (![] : Fin 0 → Fin S32x512x1x64.rank)
  reducesTo_S32x512x1x64_S_d0_1_2_3 : S32x512x1x64.ReducesTo [0, 1, 2, 3] S_
  h_S_ : 0 < S_.numel
  bcast_S_S512x128x64 : S_.BroadcastsInDim S512x128x64 (![] : Fin 0 → Fin S512x128x64.rank)
  reducesTo_S512x128x64_S_d0_1_2 : S512x128x64.ReducesTo [0, 1, 2] S_

variable [Facts]

def fn {F : FTy → Type} [FloatOps F] (main_arg0 : IVec S32x512x1x64 32) (main_arg1 : IVec S512x128x64 32) : IVec S_ 1 :=
  let main_c : IVec S_ 32 := constantI S_ 32 0#32
  let main_v0 : IVec S32x512x1x64 32 := broadcastInDim S32x512x1x64 ![] bcast_S_S32x512x1x64 main_c
  let main_v1 : IVec S32x512x1x64 1 := cmpi .eq main_arg0 main_v0
  let main_c_0 : IVec S_ 32 := constantI S_ 32 1#32
  let main_v2 : IVec S32x512x1x64 32 := broadcastInDim S32x512x1x64 ![] bcast_S_S32x512x1x64 main_c_0
  let main_v3 : IVec S32x512x1x64 1 := cmpi .eq main_arg0 main_v2
  let main_v4 : IVec S32x512x1x64 1 := ori main_v1 main_v3
  let main_c_1 : IVec S_ 1 := constantI S_ 1 1#1
  let main_v5 : IVec S_ 1 := (fun x v => Host.reduce IntOp.andi x v reducesTo_S32x512x1x64_S_d0_1_2_3 h_S_) main_v4 main_c_1
  let main_c_2 : IVec S_ 32 := constantI S_ 32 0#32
  let main_v6 : IVec S512x128x64 32 := broadcastInDim S512x128x64 ![] bcast_S_S512x128x64 main_c_2
  let main_v7 : IVec S512x128x64 1 := cmpi .eq main_arg1 main_v6
  let main_c_3 : IVec S_ 32 := constantI S_ 32 1#32
  let main_v8 : IVec S512x128x64 32 := broadcastInDim S512x128x64 ![] bcast_S_S512x128x64 main_c_3
  let main_v9 : IVec S512x128x64 1 := cmpi .eq main_arg1 main_v8
  let main_v10 : IVec S512x128x64 1 := ori main_v7 main_v9
  let main_c_4 : IVec S_ 1 := constantI S_ 1 1#1
  let main_v11 : IVec S_ 1 := (fun x v => Host.reduce IntOp.andi x v reducesTo_S512x128x64_S_d0_1_2 h_S_) main_v10 main_c_4
  let main_v12 : IVec S_ 1 := andi main_v5 main_v11
  main_v12
-- ==== Kernel.lean ====
abbrev S32x512x1x64 : Shape := ⟨4, ![32, 512, 1, 64]⟩
abbrev S512x128x64 : Shape := ⟨3, ![512, 128, 64]⟩
abbrev S32x512x64 : Shape := ⟨3, ![32, 512, 64]⟩
abbrev S_ : Shape := ⟨0, ![]⟩
abbrev S64x32x512 : Shape := ⟨3, ![64, 32, 512]⟩
abbrev S64x512x128 : Shape := ⟨3, ![64, 512, 128]⟩
abbrev S32x8192 : Shape := ⟨2, ![32, 8192]⟩
abbrev S64x16x512 : Shape := ⟨3, ![64, 16, 512]⟩
abbrev S16x8192 : Shape := ⟨2, ![16, 8192]⟩
abbrev S64x16x128 : Shape := ⟨3, ![64, 16, 128]⟩
abbrev S16x128x64 : Shape := ⟨3, ![16, 128, 64]⟩
abbrev S32x128x64 : Shape := ⟨3, ![32, 128, 64]⟩

abbrev nBuf : Space → Nat
  | .hbm => 15
  | .vmem => 5
  | .smem => 0
  | _ => 0

abbrev bufTy : (tb : Table) → Fin (tcTables nBuf tb) → BufTy
  | .hbm, ⟨0, _⟩ => ⟨S32x512x1x64, .i32⟩
  | .hbm, ⟨1, _⟩ => ⟨S512x128x64, .i32⟩
  | .hbm, ⟨2, _⟩ => ⟨S32x512x64, .i32⟩
  | .hbm, ⟨3, _⟩ => ⟨S_, .i32⟩
  | .hbm, ⟨4, _⟩ => ⟨S32x512x64, .i32⟩
  | .hbm, ⟨5, _⟩ => ⟨S32x512x64, .i1⟩
  | .hbm, ⟨6, _⟩ => ⟨S32x512x64, .bf16⟩
  | .hbm, ⟨7, _⟩ => ⟨S_, .i32⟩
  | .hbm, ⟨8, _⟩ => ⟨S512x128x64, .i32⟩
  | .hbm, ⟨9, _⟩ => ⟨S512x128x64, .i1⟩
  | .hbm, ⟨10, _⟩ => ⟨S512x128x64, .bf16⟩
  | .hbm, ⟨11, _⟩ => ⟨S64x32x512, .bf16⟩
  | .hbm, ⟨12, _⟩ => ⟨S64x512x128, .bf16⟩
  | .hbm, ⟨13, _⟩ => ⟨S32x8192, .i32⟩
  | .hbm, ⟨14, _⟩ => ⟨S32x128x64, .i32⟩
  | .local _ .vmem, ⟨0, _⟩ => ⟨S64x16x512, .bf16⟩
  | .local _ .vmem, ⟨1, _⟩ => ⟨S64x16x512, .bf16⟩
  | .local _ .vmem, ⟨2, _⟩ => ⟨S64x512x128, .bf16⟩
  | .local _ .vmem, ⟨3, _⟩ => ⟨S16x8192, .i32⟩
  | .local _ .vmem, ⟨4, _⟩ => ⟨S16x8192, .i32⟩
  | _, _ => ⟨S32x512x1x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x1x64_S32x512x64 : S32x512x1x64.ShapeCasts S32x512x64
  bcast_S_S32x512x64 : S_.BroadcastsInDim S32x512x64 (![] : Fin 0 → Fin S32x512x64.rank)
  bcast_S_S512x128x64 : S_.BroadcastsInDim S512x128x64 (![] : Fin 0 → Fin S512x128x64.rank)
  transposes_S32x512x64_S64x32x512_2_0_1 : S32x512x64.Transposes [2, 0, 1] S64x32x512
  transposes_S512x128x64_S64x512x128_2_0_1 : S512x128x64.Transposes [2, 0, 1] S64x512x128
  inb_S64x16x512_S64x16x512_0_0_0 : ∀ a, (![0, 0, 0] : Fin 3 → Nat) a + S64x16x512.size a ≤ S64x16x512.size a
  h_S64x16x512 : 0 < S64x16x512.numel
  shapeCasts_S64x16x512_S64x16x512 : S64x16x512.ShapeCasts S64x16x512
  inb_S64x512x128_S64x512x128_0_0_0 : ∀ a, (![0, 0, 0] : Fin 3 → Nat) a + S64x512x128.size a ≤ S64x512x128.size a
  h_S64x512x128 : 0 < S64x512x128.numel
  shapeCasts_S64x512x128_S64x512x128 : S64x512x128.ShapeCasts S64x512x128
  transposes_S64x16x128_p1_2_0_S16x128x64 : S64x16x128.Transposes [1, 2, 0] S16x128x64
  natLt_1_32 : 1 < 32
  shapeCasts_S16x128x64_S16x8192 : S16x128x64.ShapeCasts S16x8192
  inb_S16x8192_S16x8192_0_0 : ∀ a, (![0, 0] : Fin 2 → Nat) a + S16x8192.size a ≤ S16x8192.size a
  h_S16x8192 : 0 < S16x8192.numel
  shapeCasts_S32x8192_S32x128x64 : S32x8192.ShapeCasts S32x128x64
  dot_S64x16x512_S64x512x128_S64x16x128_2_1_1_2_0_0_wf : DotDims.WF S64x16x512 S64x512x128 S64x16x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x512.size a ≤ S64x32x512.size a
  hwx0_0 : ∀ i : grid0.Coords, EltTy.bits .bf16 = 32 ∨ (Rect.block (s := S64x32x512) S64x16x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512x128.size a ≤ S64x512x128.size a
  hwx0_1 : ∀ i : grid0.Coords, EltTy.bits .bf16 = 32 ∨ (Rect.block (s := S64x512x128) S64x512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8192.size a ≤ S32x8192.size a
  hwx0_2 : ∀ i : grid0.Coords, EltTy.bits .i32 = 32 ∨ (Rect.block (s := S32x8192) S16x8192.size (cc0_transform_2 i) (hinb0_2 i)).WholeWords (EltTy.packing .i32)

variable [Facts₀]

def dot_S64x16x512_S64x512x128_S64x16x128_2_1_1_2_0_0 : DotDims S64x16x512 S64x512x128 S64x16x128 where
  lhsContracting := [2]
  rhsContracting := [1]
  lhsNonContracting := [1]
  rhsNonContracting := [2]
  lhsBatch := [0]
  rhsBatch := [0]
  wf := dot_S64x16x512_S64x512x128_S64x16x128_2_1_1_2_0_0_wf

abbrev win0_0 : Pipeline.Window sig grid0 :=
  Pipeline.Window.ofSpec (Memref.whole main_v7) S64x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S64x512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S16x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x1x64 : Shape := ⟨4, ![32, 512, 1, 64]⟩
abbrev S512x128x64 : Shape := ⟨3, ![512, 128, 64]⟩
abbrev S1x512x128x64 : Shape := ⟨4, ![1, 512, 128, 64]⟩
abbrev S32x512x128x64 : Shape := ⟨4, ![32, 512, 128, 64]⟩
abbrev S_ : Shape := ⟨0, ![]⟩
abbrev S32x128x64 : Shape := ⟨3, ![32, 128, 64]⟩

abbrev nBuf : Space → Nat
  | .hbm => 12
  | .vmem => 0
  | .smem => 0
  | _ => 0

abbrev bufTy : (tb : Table) → Fin (tcTables nBuf tb) → BufTy
  | .hbm, ⟨0, _⟩ => ⟨S32x512x1x64, .i32⟩
  | .hbm, ⟨1, _⟩ => ⟨S512x128x64, .i32⟩
  | .hbm, ⟨2, _⟩ => ⟨S1x512x128x64, .i32⟩
  | .hbm, ⟨3, _⟩ => ⟨S32x512x128x64, .i32⟩
  | .hbm, ⟨4, _⟩ => ⟨S32x512x128x64, .i32⟩
  | .hbm, ⟨5, _⟩ => ⟨S32x512x128x64, .i32⟩
  | .hbm, ⟨6, _⟩ => ⟨S_, .i32⟩
  | .hbm, ⟨7, _⟩ => ⟨S32x128x64, .i32⟩
  | .hbm, ⟨8, _⟩ => ⟨S_, .i32⟩
  | .hbm, ⟨9, _⟩ => ⟨S32x128x64, .i32⟩
  | .hbm, ⟨10, _⟩ => ⟨S32x128x64, .i1⟩
  | .hbm, ⟨11, _⟩ => ⟨S32x128x64, .i32⟩
  | _, _ => ⟨S32x512x1x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S512x128x64_S1x512x128x64_1_2_3 : S512x128x64.BroadcastsInDim S1x512x128x64 (![1, 2, 3] : Fin 3 → Fin S1x512x128x64.rank)
  bcast_S32x512x1x64_S32x512x128x64_0_1_2_3 : S32x512x1x64.BroadcastsInDim S32x512x128x64 (![0, 1, 2, 3] : Fin 4 → Fin S32x512x128x64.rank)
  bcast_S1x512x128x64_S32x512x128x64_0_1_2_3 : S1x512x128x64.BroadcastsInDim S32x512x128x64 (![0, 1, 2, 3] : Fin 4 → Fin S32x512x128x64.rank)
  reducesTo_S32x512x128x64_S32x128x64_d1 : S32x512x128x64.ReducesTo [1] S32x128x64
  h_S_ : 0 < S_.numel
  bcast_S_S32x128x64 : S_.BroadcastsInDim S32x128x64 (![] : Fin 0 → Fin S32x128x64.rank)
  natLt_1_32 : 1 < 32

variable [Facts₀]

class Facts : Prop extends Facts₀ where

variable [Facts]
-- ==== Proof.BitSpec.lean ====
/-
  The value of a thresholded bit layer, stated once over two finite families of 32-bit words.

  For families `a b : Fin n → BitVec 32` the layer's output word is `thr a b`: 1 when some position `d` carries a
  non-zero word in both families, 0 otherwise.  Two computations arrive at it.

  * Over the extended reals: turn every word into the real 1 (non-zero) or 0 (zero), multiply position by position,
    add up, and ask whether the sum is positive.  Every product is 0 or 1, so the sum is positive exactly when some
    product is 1.  This needs nothing of the words.
  * Over the words: AND position by position, add up with wrapping 32-bit addition from 0, and ask whether the sum
    is positive as a signed word.  When every word is 0 or 1 the AND is 1 exactly where both are non-zero, the sum
    counts those positions, and with fewer than 2³¹ positions the count neither wraps nor turns negative.
-/
import Idealize.ShloMosaic.PureOps.Ideal
import Idealize.ShloMosaic.PureOps.Reduce
import Idealize.ShloMosaic.Lib.StableHlo.Predicate

noncomputable section

namespace Cert.BitLayer

open Idealize.ShloMosaic Idealize.ShloMosaic.StableHlo.Predicate

/-- A word that is 0 or 1. -/
def IsBit (w : BitVec 32) : Prop := w = 0#32 ∨ w = 1#32

/-- The extended real a word becomes when it is tested against zero and the test's bit is converted: 1 for a
    non-zero word, 0 for zero. -/
def nz (w : BitVec 32) : EReal := (((IntOp.cmpi .ne w 0#32).toNat : ℝ) : EReal)

theorem nz_eq (w : BitVec 32) : nz w = if w = 0#32 then 0 else 1 := by
  unfold nz IntOp.cmpi
  by_cases h : w = 0#32
  · subst h; simp
  · have : (w != 0#32) = true := by simpa using h
    rw [if_neg h]; simp [this]

open Classical in
/-- The layer's output word: 1 when some position carries a non-zero word in both families. -/
def thr {n : Nat} (a b : Fin n → BitVec 32) : BitVec 32 :=
  if ∃ d, a d ≠ 0#32 ∧ b d ≠ 0#32 then 1#32 else 0#32

/-- The product of two converted words is 1 where both are non-zero and 0 elsewhere. -/
theorem nz_mul (u v : BitVec 32) : nz u * nz v = if u ≠ 0#32 ∧ v ≠ 0#32 then 1 else 0 := by
  rw [nz_eq, nz_eq]
  by_cases hu : u = 0#32 <;> by_cases hv : v = 0#32 <;> simp [hu, hv]

/-- Over the extended reals: the sum of the products is positive exactly when some position has both words non-zero;
    widened to a word, the comparison's bit is `thr`. -/
theorem thr_of_real_sum {n : Nat} (a b : Fin n → BitVec 32) :
    (Ideal.cmp .ogt (∑ d, nz (a d) * nz (b d)) 0).setWidth 32 = thr a b := by
  classical
  have hnn : ∀ d ∈ (Finset.univ : Finset (Fin n)), (0 : EReal) ≤ nz (a d) * nz (b d) := by
    intro d _; rw [nz_mul]; split <;> simp
  have hpos : (0 : EReal) < ∑ d, nz (a d) * nz (b d) ↔ ∃ d, a d ≠ 0#32 ∧ b d ≠ 0#32 := by
    rw [lt_iff_le_and_ne, ne_comm, Ne, Finset.sum_eq_zero_iff_of_nonneg hnn]
    constructor
    · rintro ⟨-, h⟩
      by_contra hne
      refine h fun d _ => ?_
      rw [nz_mul, if_neg (fun hd => hne ⟨d, hd⟩)]
    · rintro ⟨d, hd⟩
      refine ⟨Finset.sum_nonneg hnn, fun h => ?_⟩
      have := h d (Finset.mem_univ d)
      rw [nz_mul, if_pos hd] at this
      exact one_ne_zero this
  unfold Ideal.cmp thr
  dsimp only
  by_cases h : ∃ d, a d ≠ 0#32 ∧ b d ≠ 0#32
  · rw [if_pos h, decide_eq_true (hpos.2 h)]; rfl
  · rw [if_neg h, decide_eq_false (fun hh => h (hpos.1 hh))]; rfl

/-- The AND of two bits, as a number: 1 where both are non-zero, 0 elsewhere. -/
theorem toNat_andi_bits {u v : BitVec 32} (hu : IsBit u) (hv : IsBit v) :
    (IntOp.andi u v).toNat = if u ≠ 0#32 ∧ v ≠ 0#32 then 1 else 0 := by
  rcases hu with rfl | rfl <;> rcases hv with rfl | rfl <;> decide

/-- Over the words: for families of bits over fewer than 2³¹ positions, the wrapping sum of the ANDs is positive as a
    signed word exactly when some position has both words non-zero; widened, the comparison's bit is `thr`. -/
theorem thr_of_word_sum {n : Nat} (hn : n < 2 ^ 31) (a b : Fin n → BitVec 32) (ha : ∀ d, IsBit (a d)) (hb : ∀ d, IsBit (b d)) :
    (IntOp.cmpi .sgt ((Finset.univ : Finset (Fin n)).fold IntOp.addi 0#32 fun d => IntOp.andi (a d) (b d)) 0#32).setWidth 32
      = thr a b := by
  classical
  have hsum : ∑ d : Fin n, (IntOp.andi (a d) (b d)).toNat = (Finset.univ.filter fun d : Fin n => a d ≠ 0#32 ∧ b d ≠ 0#32).card := by
    rw [Finset.card_filter]
    exact Finset.sum_congr rfl fun d _ => toNat_andi_bits (ha d) (hb d)
  have hle : (Finset.univ.filter fun d : Fin n => a d ≠ 0#32 ∧ b d ≠ 0#32).card ≤ n := by
    simpa using Finset.card_le_univ (Finset.univ.filter fun d : Fin n => a d ≠ 0#32 ∧ b d ≠ 0#32)
  have htn : ((Finset.univ : Finset (Fin n)).fold IntOp.addi 0#32 fun d => IntOp.andi (a d) (b d)).toNat
      = (Finset.univ.filter fun d : Fin n => a d ≠ 0#32 ∧ b d ≠ 0#32).card := by
    rw [toNat_fold_addi _ _ (by rw [hsum]; omega), hsum]
  have hgt := sgt_iff_toNat (a := (Finset.univ : Finset (Fin n)).fold IntOp.addi 0#32 fun d => IntOp.andi (a d) (b d)) (b := 0#32)
    (by rw [htn]; omega) (by decide)
  rw [htn, show (0#32 : BitVec 32).toNat = 0 from rfl, Finset.card_pos] at hgt
  unfold thr
  by_cases h : ∃ d, a d ≠ 0#32 ∧ b d ≠ 0#32
  · obtain ⟨d, hd⟩ := h
    rw [if_pos ⟨d, hd⟩, hgt.2 ⟨d, Finset.mem_filter.2 ⟨Finset.mem_univ d, hd⟩⟩]; rfl
  · rw [if_neg h]
    have h0 : IntOp.cmpi .sgt ((Finset.univ : Finset (Fin n)).fold IntOp.addi 0#32 fun d => IntOp.andi (a d) (b d)) 0#32 = 0#1 := by
      rcases BitVec.eq_zero_or_eq_one (IntOp.cmpi .sgt ((Finset.univ : Finset (Fin n)).fold IntOp.addi 0#32 fun d => IntOp.andi (a d) (b d)) 0#32) with h0 | h1
      · exact h0
      · obtain ⟨d, hd⟩ := hgt.1 h1
        exact absurd ⟨d, (Finset.mem_filter.1 hd).2⟩ h
    rw [h0]; rfl

end Cert.BitLayer

end
-- ==== Proof.PreBits.lean ====
/-
  What the precondition says.

  The precondition tests every entry of `x` for being equal to 0 or equal to 1, takes the conjunction over the whole
  array, does the same for `k`, and joins the two.  When its one result bit is 1, each conjunction is 1, so every
  entry passed its test, and an entry that equals the constant 0 or the constant 1 read at its index is 0 or 1.
-/
import proofs.«413398_j6090263626027_3_alg».proof.Proof.Gen.Pre_any_inputs
import proofs.«413398_j6090263626027_3_alg».proof.Proof.BitSpec
import Idealize.ShloMosaic.Lib.ReduceAll
import Idealize.ShloMosaic.Lib.StableHlo.Predicate
import Idealize.ShloMosaic.Lib.ValueIdx

noncomputable section

namespace Cert.BitLayer.Pre

open Idealize.ShloMosaic Idealize.ShloMosaic.StableHlo.Predicate
open Cert.Pre_any_inputs Cert.Pre_any_inputs.Gen Cert.BitLayer

/-- The scalar shape has one index. -/
instance : Subsingleton S_.Idx := ⟨fun a b => funext fun d => d.elim0⟩

/-- An entry whose test "equals the constant 0 everywhere, or equals the constant 1 everywhere" came out 1 is 0 or 1. -/
theorem isBit_of_test {t : Shape} (hb : S_.BroadcastsInDim t (![] : Fin 0 → Fin t.rank)) (v : IVec t 32) (j : t.Idx)
    (h : ori (cmpi .eq v (broadcastInDim t ![] hb (constantI S_ 32 0#32)))
          (cmpi .eq v (broadcastInDim t ![] hb (constantI S_ 32 1#32))) j = 1#1) : IsBit (v j) := by
  rcases IntOp.ori_eq_one.1 h with h | h
  · left
    have e := IntOp.cmpi_eq.1 h
    rwa [bcast_scalar hb h_S_] at e
  · right
    have e := IntOp.cmpi_eq.1 h
    rwa [bcast_scalar hb h_S_] at e

/-- Under the precondition every entry of both arrays is 0 or 1, at any float instance. -/
theorem bits_of_pre {F : FTy → Type} [FloatOps F] (x : IVec S32x512x1x64 32) (k : IVec S512x128x64 32)
    (h : Cert.Pre_any_inputs.fn (F := F) x k = fun _ => 1#1) : (∀ j, IsBit (x j)) ∧ (∀ j, IsBit (k j)) := by
  have h0 := congrFun h ValueIdx.ix0
  dsimp only [Cert.Pre_any_inputs.fn] at h0
  obtain ⟨hx, hk⟩ := IntOp.andi_eq_one.1 h0
  exact ⟨fun j => isBit_of_test bcast_S_S32x512x1x64 x j (Host.reduce_andi_all _ _ _ _ _ hx j),
    fun j => isBit_of_test bcast_S_S512x128x64 k j (Host.reduce_andi_all _ _ _ _ _ hk j)⟩

end Cert.BitLayer.Pre

end
-- ==== Proof.Layer.lean ====
/-
  The bit layer as ONE function of its two argument arrays.

  `x : [32, 512, 1, 64]` holds, for batch row `b`, input `d` and bit position `s`, a word `x[b, d, 0, s]`;
  `k : [512, 128, 64]` holds, for input `d`, output `o` and bit position `s`, a word `k[d, o, s]`.  The layer's result
  at `(b, o, s)` is 1 when some input `d` has both `x[b, d, 0, s]` and `k[d, o, s]` non-zero, and 0 otherwise
  (`Cert.BitLayer.thr` over the two families indexed by `d`).
-/
import proofs.«413398_j6090263626027_3_alg».proof.Proof.BitSpec
import Idealize.ShloMosaic.Lib.ValueIdx

noncomputable section

namespace Cert.BitLayer

open Idealize.ShloMosaic Idealize.ShloMosaic.ValueIdx

abbrev SX : Shape := ⟨4, ![32, 512, 1, 64]⟩
abbrev SK : Shape := ⟨3, ![512, 128, 64]⟩
abbrev SO : Shape := ⟨3, ![32, 128, 64]⟩

/-- Row `b`, bit position `s` of `x`, as a family over the inputs `d`. -/
def xrow (x : IVec SX 32) (b : Fin 32) (s : Fin 64) : Fin 512 → BitVec 32 := fun d => x (ix4 b d 0 s)

/-- Output `o`, bit position `s` of `k`, as a family over the inputs `d`. -/
def kcol (k : IVec SK 32) (o : Fin 128) (s : Fin 64) : Fin 512 → BitVec 32 := fun d => k (ix3 d o s)

/-- The layer: at `(b, o, s)`, whether some input has a non-zero word in both arrays. -/
def layer (x : IVec SX 32) (k : IVec SK 32) : IVec SO 32 :=
  fun i => thr (xrow x (i 0) (i 2)) (kcol k (i 1) (i 2))

end Cert.BitLayer

end
-- ==== Proof.RefValue.lean ====
/-
  The reference computes the layer, when both arrays hold bits.

  The reference broadcasts `x` along the outputs and `k` along the batch rows, ANDs them word by word, adds the ANDs
  over the input axis with wrapping 32-bit addition from 0, and tests the sum for being positive as a signed word.  At
  `(b, o, s)` the words added are `x[b, d, 0, s] AND k[d, o, s]` for `d` below 512; for bits their sum counts the
  inputs where both are set (`thr_of_word_sum`), so the test's widened bit is the layer's value there.
-/
import proofs.«413398_j6090263626027_3_alg».proof.Proof.Gen.ReferenceIdeal.Read
import proofs.«413398_j6090263626027_3_alg».proof.Proof.Layer
import Idealize.ShloMosaic.PureOps.Reduce

noncomputable section

namespace Cert.BitLayer.Ref

open Idealize.ShloMosaic Idealize.ShloMosaic.ValueIdx
open Cert.ReferenceIdeal Cert.ReferenceIdeal.Gen Cert.ReferenceIdeal.Read Cert.BitLayer

/-- The summed axis is the second of four. -/
theorem reduces_inputs : S32x512x128x64.Reduces [1] S32x128x64 := by decide

/-- The words the reference adds up for the result at `i = (b, o, s)`: input `d`'s AND. -/
theorem summand (x0 : IVec S32x512x1x64 32) (x1 : IVec S512x128x64 32) (i : S32x128x64.Idx) (d : Fin 512) :
    val_main_v3 (F := Ideal) x0 x1 (reduces_inputs.lift i d) = IntOp.andi (xrow x0 (i 0) (i 2) d) (kcol x1 (i 1) (i 2) d) := by
  rw [val_main_v3_apply, val_main_v1_apply, val_main_v2_apply, val_main_v0_apply]
  unfold xrow kcol
  congr 2
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl

/-- The reference's last stage is the layer of its two arguments, when every entry of both is 0 or 1. -/
theorem stage_eq_layer (x0 : IVec S32x512x1x64 32) (x1 : IVec S512x128x64 32)
    (h0 : ∀ j, IsBit (x0 j)) (h1 : ∀ j, IsBit (x1 j)) :
    val_main_v7 (F := Ideal) x0 x1 = layer x0 x1 := by
  funext i
  rw [val_main_v7_apply, val_main_v6_apply, val_main_v5_apply, val_main_c_0_apply]
  unfold val_main_v4
  rw [Host.reduce_eq_fold_single IntOp.addi _ _ reducesTo_S32x512x128x64_S32x128x64_d1 reduces_inputs h_S_ i]
  have hf : (val_main_v3 (F := Ideal) x0 x1 ∘ reduces_inputs.lift i)
      = fun d : Fin 512 => IntOp.andi (xrow x0 (i 0) (i 2) d) (kcol x1 (i 1) (i 2) d) :=
    funext fun d => summand x0 x1 i d
  rw [hf, val_main_c_apply]
  exact thr_of_word_sum (n := 512) (by norm_num) _ _ (fun d => h0 _) (fun d => h1 _)

end Cert.BitLayer.Ref

end
-- ==== Proof.KernelEntry.lean ====
/-
  What the region finds in its two input arrays.

  Before the region, the program drops `x`'s unit axis, tests every word of `x` and of `k` against zero, converts each
  test bit to a float, and moves the bit-position axis first.  So the first input array `[64, 32, 512]` holds at
  `(s, b, d)` the real 1 when `x[b, d, 0, s]` is non-zero and 0 otherwise (`nz`), and the second `[64, 512, 128]`
  holds at `(s, d, o)` the same of `k[d, o, s]`.
-/
import proofs.«413398_j6090263626027_3_alg».proof.Proof.Gen.KernelIdeal.Frame
import proofs.«413398_j6090263626027_3_alg».proof.Proof.Layer
import Idealize.ShloMosaic.Lib.StableHlo.Run
import Idealize.ShloMosaic.Lib.StableHlo.Predicate
import Idealize.ShloMosaic.Lib.Pipeline.Value
import Idealize.ShloMosaic.PureOps.Ideal

noncomputable section

namespace Cert.BitLayer.Kernel

open Idealize.ShloMosaic Idealize.ShloMosaic.TcCoe Idealize.ShloMosaic.ValueIdx Idealize.SL.Sem
open Idealize.ShloMosaic.StableHlo.Predicate (bcast_scalar)
open Cert.KernelIdeal Cert.KernelIdeal.Gen Cert.BitLayer

variable (m : (ℓ : Loc nD τ sig) → Buf (Elt Ideal) ℓ)

/-- The first argument array as launched, at its literal type. -/
abbrev xarg (c : Dev nD) : IVec S32x512x1x64 32 := m ((c : Thread nD τ).loc main_arg0)
/-- The second argument array as launched, at its literal type. -/
abbrev karg (c : Dev nD) : IVec S512x128x64 32 := m ((c : Thread nD τ).loc main_arg1)

/-- The first input array at the region's entry, as the host operations' term of `x`. -/
theorem entry_x (c : Dev nD) : (V m c main_v7 : S64x32x512.Idx → EReal)
    = transpose S64x32x512 [2, 0, 1] (uitofp (F := Ideal) .bf16 (cmpi .ne
        (shapeCast S32x512x64 (xarg m c) shapeCasts_S32x512x1x64_S32x512x64)
        (broadcastInDim S32x512x64 ![] bcast_S_S32x512x64 (constantI S_ 32 0#32))))
      transposes_S32x512x64_S64x32x512_2_0_1 := by
  show StableHlo.after hostOps0 (fun b => m (c, b)) (Proc.devRef .tc main_v7) = _
  after_results
  rfl

/-- The second input array at the region's entry, as the host operations' term of `k`. -/
theorem entry_k (c : Dev nD) : (V m c main_v8 : S64x512x128.Idx → EReal)
    = transpose S64x512x128 [2, 0, 1] (uitofp (F := Ideal) .bf16 (cmpi .ne (karg m c)
        (broadcastInDim S512x128x64 ![] bcast_S_S512x128x64 (constantI S_ 32 0#32))))
      transposes_S512x128x64_S64x512x128_2_0_1 := by
  show StableHlo.after hostOps0 (fun b => m (c, b)) (Proc.devRef .tc main_v8) = _
  after_results

/-- At `(s, b, d)` the first input array holds `nz x[b, d, 0, s]`. -/
theorem entry_x_at (c : Dev nD) (s : Fin 64) (b : Fin 32) (d : Fin 512) :
    (V m c main_v7 : S64x32x512.Idx → EReal) (ix3 s b d) = nz (xarg m c (ix4 b d 0 s)) := by
  rw [entry_x, transpose_apply [2, 0, 1] _ transposes_S32x512x64_S64x32x512_2_0_1 (ix3 s b d) (ix3 b d s) (fun a => by
    match a with
    | ⟨0, _⟩ => rfl
    | ⟨1, _⟩ => rfl
    | ⟨2, _⟩ => rfl)]
  show FloatOps.uitofp (F := Ideal) .bf16 (IntOp.cmpi .ne
      (shapeCast S32x512x64 (xarg m c) shapeCasts_S32x512x1x64_S32x512x64 (ix3 b d s))
      (broadcastInDim S32x512x64 ![] bcast_S_S32x512x64 (constantI S_ 32 0#32) (ix3 b d s))) = _
  rw [shapeCast_apply _ shapeCasts_S32x512x1x64_S32x512x64 (ix3 b d s) (ix4 b d 0 s) (by
      rw [Shape.rowMajor_val_four, Shape.rowMajor_val_three]
      show ((b.val * 512 + d.val) * 1 + 0) * 64 + s.val = (b.val * 512 + d.val) * 64 + s.val
      omega),
    bcast_scalar bcast_S_S32x512x64 (by decide)]
  rfl

/-- At `(s, d, o)` the second input array holds `nz k[d, o, s]`. -/
theorem entry_k_at (c : Dev nD) (s : Fin 64) (d : Fin 512) (o : Fin 128) :
    (V m c main_v8 : S64x512x128.Idx → EReal) (ix3 s d o) = nz (karg m c (ix3 d o s)) := by
  rw [entry_k, transpose_apply [2, 0, 1] _ transposes_S512x128x64_S64x512x128_2_0_1 (ix3 s d o) (ix3 d o s) (fun a => by
    match a with
    | ⟨0, _⟩ => rfl
    | ⟨1, _⟩ => rfl
    | ⟨2, _⟩ => rfl)]
  show FloatOps.uitofp (F := Ideal) .bf16 (IntOp.cmpi .ne (karg m c (ix3 d o s))
      (broadcastInDim S512x128x64 ![] bcast_S_S512x128x64 (constantI S_ 32 0#32) (ix3 d o s))) = _
  rw [bcast_scalar bcast_S_S512x128x64 (by decide)]
  rfl

end Cert.BitLayer.Kernel

end
-- ==== Proof.KernelPayload.lean ====
/-
  What the kernel body stores, at one index of its output block.

  The body loads a block `x0 : [64, 16, 512]` (bit position, batch row in the block, input) and the whole of
  `x1 : [64, 512, 128]` (bit position, input, output), multiplies them as 64 batched matrices contracted over the input
  axis into a zero accumulator, moves the bit-position axis last, tests each entry for being positive, widens the test
  bit to a word, and lays the `[16, 128, 64]` result out as `[16, 8192]`.  So at row `bl` and column
  `o * 64 + s` the stored word is the widened bit of `0 < ∑ d, x0[s, bl, d] * x1[s, d, o]`, a sum of extended reals.
-/
import proofs.«413398_j6090263626027_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.BitLayer.Kernel

open Idealize.ShloMosaic Idealize.ShloMosaic.ValueIdx
open Cert.KernelIdeal Cert.KernelIdeal.Gen

/-! ## The batched product's operand indices, axis by axis -/

theorem lhs_axis0 (i : S64x16x128.Idx) (q : dot_S64x16x512_S64x512x128_S64x16x128_2_1_1_2_0_0.contr.Idx) :
    (dot_S64x16x512_S64x512x128_S64x16x128_2_1_1_2_0_0.lhsIdx i q 0).val = (i 0).val := by
  unfold DotDims.lhsIdx
  rw [dif_pos (show (0 : Fin S64x16x512.rank) ∈ dot_S64x16x512_S64x512x128_S64x16x128_2_1_1_2_0_0.lhsBatch by decide)]
  rfl

theorem lhs_axis1 (i : S64x16x128.Idx) (q : dot_S64x16x512_S64x512x128_S64x16x128_2_1_1_2_0_0.contr.Idx) :
    (dot_S64x16x512_S64x512x128_S64x16x128_2_1_1_2_0_0.lhsIdx i q 1).val = (i 1).val := by
  unfold DotDims.lhsIdx
  rw [dif_neg (show ¬(1 : Fin S64x16x512.rank) ∈ dot_S64x16x512_S64x512x128_S64x16x128_2_1_1_2_0_0.lhsBatch by decide),
    dif_pos (show (1 : Fin S64x16x512.rank) ∈ dot_S64x16x512_S64x512x128_S64x16x128_2_1_1_2_0_0.lhsNonContracting by decide)]
  rfl

theorem lhs_axis2 (i : S64x16x128.Idx) (q : dot_S64x16x512_S64x512x128_S64x16x128_2_1_1_2_0_0.contr.Idx) :
    (dot_S64x16x512_S64x512x128_S64x16x128_2_1_1_2_0_0.lhsIdx i q 2).val = (q ⟨0, by decide⟩).val :=
  dot_S64x16x512_S64x512x128_S64x16x128_2_1_1_2_0_0.lhsIdx_val_of_single rfl i q

theorem rhs_axis0 (i : S64x16x128.Idx) (q : dot_S64x16x512_S64x512x128_S64x16x128_2_1_1_2_0_0.contr.Idx) :
    (dot_S64x16x512_S64x512x128_S64x16x128_2_1_1_2_0_0.rhsIdx i q 0).val = (i 0).val := by
  unfold DotDims.rhsIdx
  rw [dif_pos (show (0 : Fin S64x512x128.rank) ∈ dot_S64x16x512_S64x512x128_S64x16x128_2_1_1_2_0_0.rhsBatch by decide)]
  rfl

theorem rhs_axis1 (i : S64x16x128.Idx) (q : dot_S64x16x512_S64x512x128_S64x16x128_2_1_1_2_0_0.contr.Idx) :
    (dot_S64x16x512_S64x512x128_S64x16x128_2_1_1_2_0_0.rhsIdx i q 1).val = (q ⟨0, by decide⟩).val :=
  dot_S64x16x512_S64x512x128_S64x16x128_2_1_1_2_0_0.rhsIdx_val_of_single rfl i q

theorem rhs_axis2 (i : S64x16x128.Idx) (q : dot_S64x16x512_S64x512x128_S64x16x128_2_1_1_2_0_0.contr.Idx) :
    (dot_S64x16x512_S64x512x128_S64x16x128_2_1_1_2_0_0.rhsIdx i q 2).val = (i 2).val := by
  unfold DotDims.rhsIdx
  rw [dif_neg (show ¬(2 : Fin S64x512x128.rank) ∈ dot_S64x16x512_S64x512x128_S64x16x128_2_1_1_2_0_0.rhsBatch by decide),
    dif_pos (show (2 : Fin S64x512x128.rank) ∈ dot_S64x16x512_S64x512x128_S64x16x128_2_1_1_2_0_0.rhsNonContracting by decide)]
  rfl

/-- The batched product into the zero accumulator, at bit position `s`, block row `bl`, output `o`: the sum over the
    inputs of the two operands' entries. -/
theorem product_at (x0 : FVec Ideal S64x16x512 .bf16) (x1 : FVec Ideal S64x512x128 .bf16) (s : Fin 64) (bl : Fin 16) (o : Fin 128) :
    matmul dot_S64x16x512_S64x512x128_S64x16x128_2_1_1_2_0_0 none x0 x1 (constant S64x16x128 .f32 0x00000000#32) (ix3 s bl o)
      = ∑ d : Fin 512, x0 (ix3 s bl d) * x1 (ix3 s d o) := by
  simp only [matmul]
  rw [Ideal.matmul_constant_zero_apply,
    ← Equiv.sum_comp (contrEquiv1 dot_S64x16x512_S64x512x128_S64x16x128_2_1_1_2_0_0 512 rfl rfl).symm]
  refine Finset.sum_congr rfl fun d _ => ?_
  have hd := contrEquiv1_symm_val dot_S64x16x512_S64x512x128_S64x16x128_2_1_1_2_0_0 512 rfl rfl d
  have el : dot_S64x16x512_S64x512x128_S64x16x128_2_1_1_2_0_0.lhsIdx (ix3 s bl o)
      ((contrEquiv1 dot_S64x16x512_S64x512x128_S64x16x128_2_1_1_2_0_0 512 rfl rfl).symm d) = ix3 s bl d :=
    funext fun a => Fin.ext (by
      match a with
      | ⟨0, _⟩ => exact lhs_axis0 _ _
      | ⟨1, _⟩ => exact lhs_axis1 _ _
      | ⟨2, _⟩ => exact (lhs_axis2 _ _).trans hd)
  have er : dot_S64x16x512_S64x512x128_S64x16x128_2_1_1_2_0_0.rhsIdx (ix3 s bl o)
      ((contrEquiv1 dot_S64x16x512_S64x512x128_S64x16x128_2_1_1_2_0_0 512 rfl rfl).symm d) = ix3 s d o :=
    funext fun a => Fin.ext (by
      match a with
      | ⟨0, _⟩ => exact rhs_axis0 _ _
      | ⟨1, _⟩ => exact (rhs_axis1 _ _).trans hd
      | ⟨2, _⟩ => exact rhs_axis2 _ _)
  rw [el, er]

/-- The stored word at row `bl`, column `q = o * 64 + s` of the body's `[16, 8192]` block. -/
theorem stored_at (x0 : Vec Ideal S64x16x512 .bf16) (x1 : Vec Ideal S64x512x128 .bf16)
    (bl : Fin 16) (o : Fin 128) (s : Fin 64) (q : Fin 8192) (hq : q.val = o.val * 64 + s.val) :
    k0_pay1 (F := Ideal) x0 x1 (ix2 bl q)
      = (Ideal.cmp .ogt (∑ d : Fin 512, x0 (ix3 s bl d) * x1 (ix3 s d o)) 0).setWidth 32 := by
  unfold k0_pay1
  dsimp only
  rw [shapeCast_apply _ shapeCasts_S16x128x64_S16x8192 (ix2 bl q) (ix3 bl o s) (by
    rw [Shape.rowMajor_val_three, Shape.rowMajor_val_two]
    show (bl.val * 128 + o.val) * 64 + s.val = bl.val * 8192 + q.val
    omega)]
  rw [extui_apply, cmpf_apply, broadcast_apply,
    transpose_apply [1, 2, 0] _ transposes_S64x16x128_p1_2_0_S16x128x64 (ix3 bl o s) (ix3 s bl o) (fun b => by
      match b with
      | ⟨0, _⟩ => rfl
      | ⟨1, _⟩ => rfl
      | ⟨2, _⟩ => rfl),
    shapeCast_self, shapeCast_self, product_at]
  show BitVec.setWidth 32 (Ideal.cmp .ogt _ (Ideal.ofBits .f32 0x00000000#32)) = _
  rw [Ideal.ofBits_zero_f32]

end Cert.BitLayer.Kernel

end
-- ==== Proof.KernelBlock.lean ====
/-
  The region's output array, and a block of it.

  The region writes `[32, 8192]`: row `r` is batch row `r`, and column `o * 64 + s` is output `o` at bit position
  `s` — the layer's `[32, 128, 64]` result with its last two axes merged (`merged`).  The body at a grid point stores
  a `[16, 8192]` block computed from a block `x0` of the first input array and the whole second input array `x1`.
  If `x0` at `(s, bl, d)` is `nz x[r, d, 0, s]` and `x1` at `(s, d, o)` is `nz k[d, o, s]`, the word stored at row
  `bl`, column `q` is the merged layer at `(r, q)`: the body's sum is the sum of products of converted words, whose
  positivity is the layer's value (`thr_of_real_sum`).
-/
import proofs.«413398_j6090263626027_3_alg».proof.Proof.KernelPayload
import proofs.«413398_j6090263626027_3_alg».proof.Proof.Layer

noncomputable section

namespace Cert.BitLayer.Kernel

open Idealize.ShloMosaic Idealize.ShloMosaic.ValueIdx
open Cert.KernelIdeal Cert.KernelIdeal.Gen Cert.BitLayer

/-- The layer's result can be laid out with its last two axes merged. -/
theorem merges : S32x128x64.ShapeCasts S32x8192 := by decide

/-- The layer's result with its last two axes merged: what the region's output array ends holding. -/
def merged (x : IVec S32x512x1x64 32) (k : IVec S512x128x64 32) : IVec S32x8192 32 :=
  shapeCast S32x8192 (layer x k) merges

/-- The merged layer at row `r`, column `o * 64 + s`. -/
theorem merged_at (x : IVec S32x512x1x64 32) (k : IVec S512x128x64 32) (r : Fin 32) (o : Fin 128) (s : Fin 64) (q : Fin 8192)
    (hq : q.val = o.val * 64 + s.val) :
    merged x k (ix2 r q) = thr (xrow x r s) (kcol k o s) := by
  unfold merged
  rw [shapeCast_apply _ merges (ix2 r q) (ix3 r o s) (by
    rw [Shape.rowMajor_val_three, Shape.rowMajor_val_two]
    show (r.val * 128 + o.val) * 64 + s.val = r.val * 8192 + q.val
    omega)]
  rfl

/-- Un-merging the merged layer gives the layer back. -/
theorem unmerge (x : IVec S32x512x1x64 32) (k : IVec S512x128x64 32) :
    shapeCast S32x128x64 (merged x k) shapeCasts_S32x8192_S32x128x64 = layer x k :=
  shapeCast_shapeCast _ _ _

/-- A stored word of the body's block is the merged layer at the array index the block's row sits at. -/
theorem stored_eq_merged (x0 : Vec Ideal S64x16x512 .bf16) (x1 : Vec Ideal S64x512x128 .bf16)
    (x : IVec S32x512x1x64 32) (k : IVec S512x128x64 32) (r : Fin 32) (bl : Fin 16) (q : Fin 8192)
    (h0 : ∀ (s : Fin 64) (d : Fin 512), x0 (ix3 s bl d) = nz (x (ix4 r d 0 s)))
    (h1 : ∀ (s : Fin 64) (d : Fin 512) (o : Fin 128), x1 (ix3 s d o) = nz (k (ix3 d o s))) :
    k0_pay1 (F := Ideal) x0 x1 (ix2 bl q) = merged x k (ix2 r q) := by
  have hq8 : q.val < 8192 := q.isLt
  have hq : q.val = (⟨q.val / 64, by omega⟩ : Fin 128).val * 64 + (⟨q.val % 64, Nat.mod_lt _ (by decide)⟩ : Fin 64).val := by
    show q.val = q.val / 64 * 64 + q.val % 64
    omega
  rw [stored_at x0 x1 bl ⟨q.val / 64, by omega⟩ ⟨q.val % 64, Nat.mod_lt _ (by decide)⟩ q hq,
    merged_at x k r ⟨q.val / 64, by omega⟩ ⟨q.val % 64, Nat.mod_lt _ (by decide)⟩ q hq,
    ← thr_of_real_sum]
  refine congrArg (fun S => (Ideal.cmp .ogt S 0).setWidth 32) (Finset.sum_congr rfl fun d _ => ?_)
  rw [h0, h1]
  rfl

end Cert.BitLayer.Kernel

end
-- ==== Proof.KernelValue.lean ====
/-
  The kernel's run computes the layer.

  The grid has two points; point `t` stages rows `16 t … 16 t + 15` of the first input array (all bit positions and
  inputs), the whole second input array, and writes back rows `16 t … 16 t + 15` of the `[32, 8192]` output.  Row
  `bl` of the block the body stores at point `t` is row `16 t + bl` of the merged layer (`stored_eq_merged`, with
  the staged blocks read off the arrays the region found), the two blocks cover the output array, so after the run
  the output array is the merged layer, and the program's last operation un-merges it.
-/
import proofs.«413398_j6090263626027_3_alg».proof.Proof.KernelEntry
import proofs.«413398_j6090263626027_3_alg».proof.Proof.KernelBlock

set_option maxRecDepth 16384

noncomputable section

namespace Cert.BitLayer.Kernel

open Idealize.ShloMosaic Idealize.ShloMosaic.TcCoe Idealize.ShloMosaic.ValueIdx Idealize.SL.Sem
open Idealize.ShloMosaic.Pipeline (Dat)
open Cert.KernelIdeal Cert.KernelIdeal.Gen Cert.BitLayer

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- The windows' block indices over the grid: the first input's rows move with the output's rows, everything else
    stays at block 0, and the output's row block is 0 or 1. -/
theorem block_indices : ∀ t : Fin cfg0.N,
    win0_0.index t (0 : Fin 3) = 0 ∧ win0_0.index t (1 : Fin 3) = win0_2.index t (0 : Fin 2) ∧ win0_0.index t (2 : Fin 3) = 0
    ∧ win0_1.index t (0 : Fin 3) = 0 ∧ win0_1.index t (1 : Fin 3) = 0 ∧ win0_1.index t (2 : Fin 3) = 0
    ∧ win0_2.index t (0 : Fin 2) ≤ 1 ∧ win0_2.index t (1 : Fin 2) = 0 :=
  (by decide +kernel : ∀ t : Fin grid0.N, _)

/-- Each of the two row blocks is some point's. -/
theorem row_block_onto : ∀ q0 : Fin 2, ∃ t : Fin cfg0.N, win0_2.index t = ![q0.val, 0] :=
  (by decide +kernel : ∀ q0 : Fin 2, ∃ t : Fin grid0.N, win0_2.index t = ![q0.val, 0])

/-- The first input's block at point `t`, at its literal type. -/
abbrev xblk (c : Dev nD) (t : Fin cfg0.N) : Vec Ideal S64x16x512 .bf16 := iblk m c 0 t
/-- The second input's block at point `t` (the whole array), at its literal type. -/
abbrev kblk (c : Dev nD) (t : Fin cfg0.N) : Vec Ideal S64x512x128 .bf16 := iblk m c 1 t

/-- Row `bl` of the first input's block at point `t` is row `r = 16 · (the output's row block) + bl` of the array. -/
theorem xblk_at (c : Dev nD) (t : Fin cfg0.N) (s : Fin 64) (bl : Fin 16) (d : Fin 512) (r : Fin 32)
    (hr : r.val = win0_2.index t (0 : Fin 2) * 16 + bl.val) :
    xblk m c t (ix3 s bl d) = nz (xarg m c (ix4 r d 0 s)) := by
  rw [← entry_x_at m c s r d]
  show (V m c main_v7 : S64x32x512.Idx → EReal) (((cfg0.win 0).blk t).view.emb (ix3 s bl d)) = (V m c main_v7 : S64x32x512.Idx → EReal) (ix3 s r d)
  refine congrArg (V m c main_v7 : S64x32x512.Idx → EReal) (funext fun a => Fin.ext ?_)
  obtain ⟨e0, e1, e2, -⟩ := block_indices t
  match a with
  | ⟨0, _⟩ => show win0_0.index t (0 : Fin 3) * 64 + 1 * s.val = s.val; omega
  | ⟨1, _⟩ => show win0_0.index t (1 : Fin 3) * 16 + 1 * bl.val = r.val; omega
  | ⟨2, _⟩ => show win0_0.index t (2 : Fin 3) * 512 + 1 * d.val = d.val; omega

/-- The second input's block is the whole array. -/
theorem kblk_at (c : Dev nD) (t : Fin cfg0.N) (s : Fin 64) (d : Fin 512) (o : Fin 128) :
    kblk m c t (ix3 s d o) = nz (karg m c (ix3 d o s)) := by
  rw [← entry_k_at m c s d o]
  show (V m c main_v8 : S64x512x128.Idx → EReal) (((cfg0.win 1).blk t).view.emb (ix3 s d o)) = (V m c main_v8 : S64x512x128.Idx → EReal) (ix3 s d o)
  refine congrArg (V m c main_v8 : S64x512x128.Idx → EReal) (funext fun a => Fin.ext ?_)
  obtain ⟨-, -, -, e3, e4, e5, -⟩ := block_indices t
  match a with
  | ⟨0, _⟩ => show win0_1.index t (0 : Fin 3) * 64 + 1 * s.val = s.val; omega
  | ⟨1, _⟩ => show win0_1.index t (1 : Fin 3) * 512 + 1 * d.val = d.val; omega
  | ⟨2, _⟩ => show win0_1.index t (2 : Fin 3) * 128 + 1 * o.val = o.val; omega

/-- What point `t` writes back is its block of the merged layer of the argument arrays. -/
theorem flushed_eq (c : Dev nD) (t : Fin cfg0.N) :
    (dats m 0 c).flushed 2 t = ((cfg0.win 2).blk t).view.read (Elt Ideal) (merged (xarg m c) (karg m c)) := by
  show (cfg0.win 2).cut (grid0.coords t) ((dats m 0 c).after 2 t) = _
  rw [after0_2]
  unfold out0_2
  rw [View.canon_unit_zero origin2]
  simp only [View.ld_unit_zero (S := S64x16x512) origin3, View.ld_unit_zero (S := S64x512x128) origin3]
  refine funext fun (j : S16x8192.Idx) => ?_
  obtain ⟨bl, q, rfl⟩ : ∃ (bl : Fin 16) (q : Fin 8192), j = ix2 bl q := ⟨j 0, j 1, eq_ix2 j⟩
  obtain ⟨-, -, -, -, -, -, e6, e7⟩ := block_indices t
  have hr : win0_2.index t (0 : Fin 2) * 16 + bl.val < 32 := by have := bl.isLt; omega
  show k0_pay1 (F := Ideal) (xblk m c t) (kblk m c t) (ix2 bl q)
    = merged (xarg m c) (karg m c) (((cfg0.win 2).blk t).view.emb (ix2 bl q))
  have hemb : ((cfg0.win 2).blk t).view.emb (ix2 bl q) = ix2 (⟨win0_2.index t (0 : Fin 2) * 16 + bl.val, hr⟩ : Fin 32) q := by
    funext a; apply Fin.ext
    match a with
    | ⟨0, _⟩ => show win0_2.index t (0 : Fin 2) * 16 + 1 * bl.val = win0_2.index t (0 : Fin 2) * 16 + bl.val; omega
    | ⟨1, _⟩ => show win0_2.index t (1 : Fin 2) * 8192 + 1 * q.val = q.val; omega
  rw [hemb]
  exact stored_eq_merged (xblk m c t) (kblk m c t) (xarg m c) (karg m c) ⟨_, hr⟩ bl q
    (fun s d => xblk_at m c t s bl d ⟨_, hr⟩ rfl) (fun s d o => kblk_at m c t s d o)

/-- An index of the output array is in point `t`'s block iff each coordinate is in the block's range. -/
theorem mem_block (t : Fin cfg0.N) (i : S32x8192.Idx) :
    i ∈ ((cfg0.win 2).blk t).view.set ↔ ∀ a : Fin 2, win0_2.index t a * S16x8192.size a ≤ (i a).val ∧ (i a).val < win0_2.index t a * S16x8192.size a + S16x8192.size a := by
  show i ∈ ((View.whole main_v9).slice (win0_2.rect t)).set ↔ _
  rw [View.set_slice_whole, Rect.mem_set_unit]
  exact Iff.rfl

/-- Every index of the output array is in some point's block: row `r` in the block of point `r / 16`. -/
theorem covered (i : S32x8192.Idx) : ∃ t : Fin cfg0.N, (cfg0.win 2).flush t = true ∧ i ∈ ((cfg0.win 2).blk t).view.set := by
  have hi0 : (i 0).val < 32 := (i 0).isLt
  have hi1 : (i 1).val < 8192 := (i 1).isLt
  obtain ⟨t, ht⟩ := row_block_onto ⟨(i 0).val / 16, by omega⟩
  have q0 : win0_2.index t (0 : Fin 2) = (i 0).val / 16 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 8192 ≤ (i 1).val ∧ (i 1).val < win0_2.index t (1 : Fin 2) * 8192 + 8192; omega

/-- After the run the region's output array is the merged layer of the argument arrays. -/
theorem region_output (c : Dev nD) : (dats m 0 c).arrAt 2 cfg0.N = merged (xarg m c) (karg m c) :=
  (dats m 0 c).arrAt_eq_of_cover 2 (merged (xarg m c) (karg m c)) (fun t _ => flushed_eq m c t) covered

/-- The program's result: the last operation un-merges the output array, giving the layer. -/
theorem result_eq (c : Dev nD) :
    Pipeline.afterTail₀ cfgs (dats m) 0 (V0 m) [hostOps1] c main_v10 = layer (xarg m c) (karg m c) := by
  unfold Pipeline.afterTail₀
  show StableHlo.after hostOps1 _ (Proc.devRef .tc main_v10) = _
  after_results
  have hw := (Pipeline.withArrays_arr spec0 launch0.win.arr_inj c (V0 m c) (fun w => (dats m 0 c).arrAt w (cfgs 0).N) 2).trans
    (region_output m c)
  exact (congrArg (fun A : IVec S32x8192 32 => shapeCast S32x128x64 A shapeCasts_S32x8192_S32x128x64) hw).trans (unmerge _ _)

/-- The idealized kernel's run: every weakly fair execution terminates with the result array at the layer of the
    argument arrays, and the argument arrays unchanged. -/
theorem run : θ_run defs (onTc (τ := τ) (main (F := Ideal))) ⟨m, fun _ => 0, ρ⟩ fun r => ∀ c : Dev nD,
      r.2.mem ((c : Thread nD τ).loc main_v10) = layer (xarg m c) (karg m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v10 (Pipeline.mem_restRefs_of main_v10 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.BitLayer.Kernel

end
-- ==== Proof.lean ====
/-
  The certificate of the bit layer: kernel against reference, over the extended reals.

  Both programs take `x : [32, 512, 1, 64]` and `k : [512, 128, 64]` of 32-bit words, which the precondition says are
  bits (each entry 0 or 1), and return `[32, 128, 64]` words.  The result at `(b, o, s)` is 1 when some input `d` has
  both `x[b, d, 0, s]` and `k[d, o, s]` set, and 0 otherwise (`Cert.BitLayer.layer`).

  * The reference ANDs the words, adds the ANDs over `d` with wrapping addition, and tests the sum for being positive:
    for bits the sum counts the inputs where both are set, and 512 of them cannot wrap (`Ref.stage_eq_layer`).
  * The kernel turns each word into the real 1 or 0 according to whether it is non-zero, multiplies the two arrays as
    64 batched matrices contracted over `d`, and tests each exact sum for being positive: a sum of zeros and ones is
    positive exactly when one of them is a one (`Kernel.run`; this side needs nothing of the words).

  The three frames are the generated ones (the reference's is its generated run with the result dropped), and the
  idealization rewrote no operation, so `preserves` has nothing to state.
-/
import proofs.«413398_j6090263626027_3_alg».proof.Defs
import proofs.«413398_j6090263626027_3_alg».proof.Proof.Gen.Kernel
import proofs.«413398_j6090263626027_3_alg».proof.Proof.Gen.Kernel.Skeleton
import proofs.«413398_j6090263626027_3_alg».proof.Proof.Gen.Kernel.Launch
import proofs.«413398_j6090263626027_3_alg».proof.Proof.Gen.Kernel.Points
import proofs.«413398_j6090263626027_3_alg».proof.Proof.Gen.Kernel.Frame
import proofs.«413398_j6090263626027_3_alg».proof.Proof.Gen.KernelIdeal
import proofs.«413398_j6090263626027_3_alg».proof.Proof.Gen.KernelIdeal.Skeleton
import proofs.«413398_j6090263626027_3_alg».proof.Proof.Gen.KernelIdeal.Launch
import proofs.«413398_j6090263626027_3_alg».proof.Proof.Gen.KernelIdeal.Points
import proofs.«413398_j6090263626027_3_alg».proof.Proof.Gen.KernelIdeal.Frame
import proofs.«413398_j6090263626027_3_alg».proof.Proof.Gen.ReferenceIdeal
import proofs.«413398_j6090263626027_3_alg».proof.Proof.Gen.ReferenceIdeal.Run
import proofs.«413398_j6090263626027_3_alg».proof.Proof.Gen.ReferenceIdeal.Read
import proofs.«413398_j6090263626027_3_alg».proof.Proof.Gen.Pre_any_inputs
import proofs.«413398_j6090263626027_3_alg».proof.Proof.PreBits
import proofs.«413398_j6090263626027_3_alg».proof.Proof.RefValue
import proofs.«413398_j6090263626027_3_alg».proof.Proof.KernelValue
import Idealize.ShloMosaic.Adequacy
import Idealize.ShloMosaic.Init

noncomputable section

namespace Cert.Proof

open Idealize.ShloMosaic Idealize.ShloMosaic.TcCoe Idealize.SL.Sem Cert.BitLayer

/-- The word-level kernel runs and leaves its arguments unchanged: the generated frame. -/
theorem frame_kernel : Cert.frame_Kernel := fun m ρ _ => Cert.Kernel.Gen.frame m ρ

/-- The idealized kernel runs and leaves its arguments unchanged: the generated frame. -/
theorem frame_kernel_ideal : Cert.frame_KernelIdeal := fun m ρ _ => Cert.KernelIdeal.Gen.frame m ρ

/-- The reference runs and leaves its arguments unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree and hold bits, both runs end with the layer of the arguments in their result. -/
theorem algebraic : Cert.algebraic_KernelIdeal_ReferenceIdeal := by
  intro m ρ m' ρ' hpre hagree
  refine ⟨fun c => layer (Kernel.xarg m c) (Kernel.karg m c), Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v7_eq]
  obtain ⟨hx, hk⟩ := Pre.bits_of_pre (F := Ideal) _ _ (hpre c)
  exact Ref.stage_eq_layer _ _ hx hk

theorem claim : Cert.Claim := ⟨Cert.Kernel.Gen.facts, Cert.KernelIdeal.Gen.facts, Cert.ReferenceIdeal.Gen.facts, Cert.Pre_any_inputs.Gen.facts,
  frame_kernel, frame_kernel_ideal, frame_reference, trivial, algebraic⟩

end Cert.Proof

end
